-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S1x64 : Shape := ⟨2, ![1, 64]⟩

abbrev nBuf : Space → Nat
  | .hbm => 70
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S1x128, .f32⟩
  | .hbm, ⟨38, _⟩ => ⟨S50000x128, .f32⟩
  | .hbm, ⟨39, _⟩ => ⟨S1x800000, .i32⟩
  | .hbm, ⟨40, _⟩ => ⟨S800000, .i32⟩
  | .hbm, ⟨41, _⟩ => ⟨S1x800000, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S1x64, .f32⟩
  | .hbm, ⟨69, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Body.lean ====
/-
  The two kernel bodies, read at an output index over the extended reals.

  Each body takes a 5000-row block `a` of the neighbour means and the matching block `x` of the node features, the
  two weight matrices `wl`, `wr` and the bias row `b`, and stores `a · wl + x · wr + b` (the first layer clamps it
  below at zero). On the extended reals a change of float format is the identity and a product accumulated into a
  zero block is the plain sum over the contracted axis, so the entry at row r and column q is
      Σ_k a[r,k] · wl[k,q]  +  Σ_k x[r,k] · wr[k,q]  +  b[0,q].
-/
import proofs.«125635_j14491219657351_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe

/-! ## First layer: a [5000, 64] block against a [64, 128] matrix -/

/-- Row `i 0` of a [5000, 64] block, at contraction position `k`. -/
abbrev rowA (i : S5000x128.Idx) (k : Fin 64) : S5000x64.Idx := fun a => match a with
  | ⟨0, _⟩ => ⟨(i 0).val, (i 0).isLt⟩
  | ⟨1, _⟩ => ⟨k.val, k.isLt⟩
/-- Column `i 1` of a [64, 128] matrix, at contraction position `k`. -/
abbrev colA (i : S5000x128.Idx) (k : Fin 64) : S64x128.Idx := fun a => match a with
  | ⟨0, _⟩ => ⟨k.val, k.isLt⟩
  | ⟨1, _⟩ => ⟨(i 1).val, (i 1).isLt⟩
/-- The bias row's entry under column `i 1`. -/
abbrev biasA (i : S5000x128.Idx) : S1x128.Idx := fun a => match a with
  | ⟨0, _⟩ => ⟨0, Nat.one_pos⟩
  | ⟨1, _⟩ => ⟨(i 1).val, (i 1).isLt⟩

theorem lhsA_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsA_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhsA_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhsA_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The block product into a zero accumulator, at an entry: the sum over the 64 contracted positions of the row's
    entry times the column's. -/
theorem matmulA_apply {φ₁ φ₂ : FTy} (a : FVec Ideal S5000x64 φ₁) (w : FVec Ideal S64x128 φ₂) (i : S5000x128.Idx) :
    matmul dot_S5000x64_S64x128_S5000x128_1_0_0_1_n_n none a w (constant S5000x128 .f32 0x00000000#32) i
      = ∑ k : Fin 64, a (rowA i k) * w (colA i k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx i ((ValueIdx.contrEquiv1 dot_S5000x64_S64x128_S5000x128_1_0_0_1_n_n 64 rfl rfl).symm k) = rowA i k := funext fun a => Fin.ext (by
    match a with
    | ⟨0, _⟩ => exact lhsA_0 _ _
    | ⟨1, _⟩ => exact (lhsA_1 _ _).trans hk)
  have er : dot_S5000x64_S64x128_S5000x128_1_0_0_1_n_n.rhsIdx i ((ValueIdx.contrEquiv1 dot_S5000x64_S64x128_S5000x128_1_0_0_1_n_n 64 rfl rfl).symm k) = colA i k := funext fun a => Fin.ext (by
    match a with
    | ⟨0, _⟩ => exact (rhsA_0 _ _).trans hk
    | ⟨1, _⟩ => exact rhsA_1 _ _)
  rw [el, er]

/-- The bias row spread down the block's rows, at an entry. -/
theorem biasA_apply (b : Vec Ideal S1x128 .f32) (i : S5000x128.Idx) :
    broadcastTo S5000x128 (shapeCast S1x128 b shapeCasts_S1x128_S1x128) broadcasts_S1x128_S5000x128 i = b (biasA i) := by
  rw [shapeCast_self]
  refine broadcastTo_apply b broadcasts_S1x128_S5000x128 i (biasA i) fun a => ?_
  match a with
  | ⟨0, _⟩ => rfl
  | ⟨1, _⟩ => rfl

/-- THE FIRST BODY at an entry: the two row-by-column sums and the bias, clamped below at the zero word. -/
theorem pay0_apply (a x : Vec Ideal S5000x64 .f32) (wl wr : Vec Ideal S64x128 .f32) (b : Vec Ideal S1x128 .f32) (i : S5000x128.Idx) :
    k0_pay1 (F := Ideal) a x wl wr b i
      = max ((∑ k : Fin 64, a (rowA i k) * wl (colA i k)) + (∑ k : Fin 64, x (rowA i k) * wr (colA i k)) + b (biasA i))
          (Ideal.ofBits .f32 0x00000000#32) := by
  unfold k0_pay1
  show max ((matmul dot_S5000x64_S64x128_S5000x128_1_0_0_1_n_n none _ _ _ i + matmul dot_S5000x64_S64x128_S5000x128_1_0_0_1_n_n none _ _ _ i) + broadcastTo S5000x128 _ _ i) _ = _
  rw [matmulA_apply, matmulA_apply, biasA_apply, shapeCast_self]
  rfl

/-! ## Second layer: a [5000, 128] block against a [128, 64] matrix -/

/-- Row `i 0` of a [5000, 128] block, at contraction position `k`. -/
abbrev rowB (i : S5000x64.Idx) (k : Fin 128) : S5000x128.Idx := fun a => match a with
  | ⟨0, _⟩ => ⟨(i 0).val, (i 0).isLt⟩
  | ⟨1, _⟩ => ⟨k.val, k.isLt⟩
/-- Column `i 1` of a [128, 64] matrix, at contraction position `k`. -/
abbrev colB (i : S5000x64.Idx) (k : Fin 128) : S128x64.Idx := fun a => match a with
  | ⟨0, _⟩ => ⟨k.val, k.isLt⟩
  | ⟨1, _⟩ => ⟨(i 1).val, (i 1).isLt⟩
/-- The bias row's entry under column `i 1`. -/
abbrev biasB (i : S5000x64.Idx) : S1x64.Idx := fun a => match a with
  | ⟨0, _⟩ => ⟨0, Nat.one_pos⟩
  | ⟨1, _⟩ => ⟨(i 1).val, (i 1).isLt⟩

theorem lhsB_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsB_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsB_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsB_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at an entry: the sum over the 128 contracted positions. -/
theorem matmulB_apply {φ₁ φ₂ : FTy} (a : FVec Ideal S5000x128 φ₁) (w : FVec Ideal S128x64 φ₂) (i : S5000x64.Idx) :
    matmul dot_S5000x128_S128x64_S5000x64_1_0_0_1_n_n none a w (constant S5000x64 .f32 0x00000000#32) i
      = ∑ k : Fin 128, a (rowB i k) * w (colB i k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = rowB i k := funext fun a => Fin.ext (by
    match a with
    | ⟨0, _⟩ => exact lhsB_0 _ _
    | ⟨1, _⟩ => exact (lhsB_1 _ _).trans hk)
  have er : dot_S5000x128_S128x64_S5000x64_1_0_0_1_n_n.rhsIdx i ((ValueIdx.contrEquiv1 dot_S5000x128_S128x64_S5000x64_1_0_0_1_n_n 128 rfl rfl).symm k) = colB i k := funext fun a => Fin.ext (by
    match a with
    | ⟨0, _⟩ => exact (rhsB_0 _ _).trans hk
    | ⟨1, _⟩ => exact rhsB_1 _ _)
  rw [el, er]

/-- The bias row spread down the block's rows, at an entry. -/
theorem biasB_apply (b : Vec Ideal S1x64 .f32) (i : S5000x64.Idx) :
    broadcastTo S5000x64 (shapeCast S1x64 b shapeCasts_S1x64_S1x64) broadcasts_S1x64_S5000x64 i = b (biasB i) := by
  rw [shapeCast_self]
  refine broadcastTo_apply b broadcasts_S1x64_S5000x64 i (biasB i) fun a => ?_
  match a with
  | ⟨0, _⟩ => rfl
  | ⟨1, _⟩ => rfl

/-- THE SECOND BODY at an entry: the two row-by-column sums and the bias. -/
theorem pay1_apply (a x : Vec Ideal S5000x128 .f32) (wl wr : Vec Ideal S128x64 .f32) (b : Vec Ideal S1x64 .f32) (i : S5000x64.Idx) :
    k1_pay1 (F := Ideal) a x wl wr b i
      = (∑ k : Fin 128, a (rowB i k) * wl (colB i k)) + (∑ k : Fin 128, x (rowB i k) * wr (colB i k)) + b (biasB i) := by
  unfold k1_pay1
  show (matmul dot_S5000x128_S128x64_S5000x64_1_0_0_1_n_n none _ _ _ i + matmul dot_S5000x128_S128x64_S5000x64_1_0_0_1_n_n none _ _ _ i) + broadcastTo S5000x64 _ _ i = _
  rw [matmulB_apply, matmulB_apply, biasB_apply, shapeCast_self, shapeCast_self]
  rfl

end Cert.KernelIdeal.Body

end
-- ==== Proof.Layers.lean ====
/-
  One SAGE layer's dense part as ONE function of whole arrays.

  Given the neighbour means `a` and the node features `x` (one row per node), the two weight matrices and the bias
  row, the entry at node r and output feature q is
      Σ_k a[r,k] · wl[k,q]  +  Σ_k x[r,k] · wr[k,q]  +  b[0,q],
  clamped below at zero in the hidden layer. A block of rows of this array depends only on the same rows of `a` and `x`,
  which is why a kernel that walks the rows 5000 at a time writes exactly this array.
-/
import proofs.«125635_j14491219657351_1_alg».proof.KernelIdeal
import Idealize.ShloMosaic.PureOps.Ideal

noncomputable section

namespace Cert.Layers

open Cert.KernelIdeal Idealize.ShloMosaic Idealize.ShloMosaic.TcCoe

/-! ## The hidden layer: 64 input features, 128 hidden features -/

/-- Node `i 0`'s row of a [50000, 64] array, at feature `k`. -/
abbrev rowH (i : S50000x128.Idx) (k : Fin 64) : S50000x64.Idx := fun a => match a with
  | ⟨0, _⟩ => ⟨(i 0).val, (i 0).isLt⟩
  | ⟨1, _⟩ => ⟨k.val, k.isLt⟩
/-- Column `i 1` of a [64, 128] weight matrix, at feature `k`. -/
abbrev colH (i : S50000x128.Idx) (k : Fin 64) : S64x128.Idx := fun a => match a with
  | ⟨0, _⟩ => ⟨k.val, k.isLt⟩
  | ⟨1, _⟩ => ⟨(i 1).val, (i 1).isLt⟩
/-- The bias row's entry under column `i 1`. -/
abbrev biasH (i : S50000x128.Idx) : S1x128.Idx := fun a => match a with
  | ⟨0, _⟩ => ⟨0, Nat.one_pos⟩
  | ⟨1, _⟩ => ⟨(i 1).val, (i 1).isLt⟩

/-- The hidden layer: `max(a · wl + x · wr + b, 0)`, entry by entry. -/
def hidden (a x : Vec Ideal S50000x64 .f32) (wl wr : Vec Ideal S64x128 .f32) (b : Vec Ideal S1x128 .f32) : Vec Ideal S50000x128 .f32 := fun i =>
  max ((∑ k : Fin 64, a (rowH i k) * wl (colH i k)) + (∑ k : Fin 64, x (rowH i k) * wr (colH i k)) + b (biasH i))
    (Ideal.ofBits .f32 0x00000000#32)

theorem hidden_apply (a x : Vec Ideal S50000x64 .f32) (wl wr : Vec Ideal S64x128 .f32) (b : Vec Ideal S1x128 .f32) (i : S50000x128.Idx) :
    hidden a x wl wr b i = max ((∑ k : Fin 64, a (rowH i k) * wl (colH i k)) + (∑ k : Fin 64, x (rowH i k) * wr (colH i k)) + b (biasH i))
      (Ideal.ofBits .f32 0x00000000#32) := rfl

/-! ## The output layer: 128 hidden features, 64 output features -/

/-- Node `i 0`'s row of a [50000, 128] array, at feature `k`. -/
abbrev rowO (i : S50000x64.Idx) (k : Fin 128) : S50000x128.Idx := fun a => match a with
  | ⟨0, _⟩ => ⟨(i 0).val, (i 0).isLt⟩
  | ⟨1, _⟩ => ⟨k.val, k.isLt⟩
/-- Column `i 1` of a [128, 64] weight matrix, at feature `k`. -/
abbrev colO (i : S50000x64.Idx) (k : Fin 128) : S128x64.Idx := fun a => match a with
  | ⟨0, _⟩ => ⟨k.val, k.isLt⟩
  | ⟨1, _⟩ => ⟨(i 1).val, (i 1).isLt⟩
/-- The bias row's entry under column `i 1`. -/
abbrev biasO (i : S50000x64.Idx) : S1x64.Idx := fun a => match a with
  | ⟨0, _⟩ => ⟨0, Nat.one_pos⟩
  | ⟨1, _⟩ => ⟨(i 1).val, (i 1).isLt⟩

/-- The output layer: `a · wl + h · wr + b`, entry by entry. -/
def output (a h : Vec Ideal S50000x128 .f32) (wl wr : Vec Ideal S128x64 .f32) (b : Vec Ideal S1x64 .f32) : Vec Ideal S50000x64 .f32 := fun i =>
  (∑ k : Fin 128, a (rowO i k) * wl (colO i k)) + (∑ k : Fin 128, h (rowO i k) * wr (colO i k)) + b (biasO i)

theorem output_apply (a h : Vec Ideal S50000x128 .f32) (wl wr : Vec Ideal S128x64 .f32) (b : Vec Ideal S1x64 .f32) (i : S50000x64.Idx) :
    output a h wl wr b i = (∑ k : Fin 128, a (rowO i k) * wl (colO i k)) + (∑ k : Fin 128, h (rowO i k) * wr (colO i k)) + b (biasO i) := rfl

end Cert.Layers

end
-- ==== Proof.BlocksHidden.lean ====
/-
  Region 0 of the kernel program (the hidden layer): its output array, as the layer function of the arrays the region finds
  on entry.

  The region walks the 50000 nodes in ten blocks of 5000 rows. At point t it reads rows 5000·t … 5000·t + 4999 of the
  neighbour means and of the features, the whole weight matrices and the bias row, and writes the same rows of the
  result. A block's coordinate is always (block index) × (block size) + (coordinate inside the block), so row r of block t
  is row 5000·t + r of the array; the body's entry there is the layer function's entry at that row. The ten blocks tile the
  array (row r lies in block r / 5000), so after the last write-back the array is the layer function everywhere.
-/
import proofs.«125635_j14491219657351_1_alg».proof.Proof.Gen.KernelIdeal.Frame
import proofs.«125635_j14491219657351_1_alg».proof.Proof.Body
import proofs.«125635_j14491219657351_1_alg».proof.Proof.Layers
import Idealize.ShloMosaic.Lib.Pipeline.Value

set_option maxRecDepth 16384

noncomputable section

namespace Cert.KernelIdeal.BlocksHidden

open Cert.KernelIdeal Cert.KernelIdeal.Gen Cert.KernelIdeal.Body Cert.Layers
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the resident ones at (0, 0). -/
theorem idx : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `y 0` of the neighbour-mean block at point t is row 5000·t + `y 0` of the array. -/
theorem mean_at (c : Dev nD) (t : Fin cfg0.N) (y : S5000x64.Idx) (k : S50000x64.Idx)
    (h0 : (k 0).val = t.val * 5000 + (y 0).val) (h1 : (k 1).val = (y 1).val) :
    (iblk0 V c 0 t : Vec Ideal S5000x64 .f32) y = (V c main_v22 : Vec Ideal S50000x64 .f32) k := by
  obtain ⟨e0, e1, -⟩ := idx t
  unfold iblk0
  rw [View.read_apply]
  show (V c main_v22 : Vec Ideal S50000x64 .f32) _ = (V c main_v22 : Vec Ideal S50000x64 .f32) _
  refine congrArg (V c main_v22 : Vec Ideal S50000x64 .f32) (funext fun a => Fin.ext ?_)
  match a with
  | ⟨0, _⟩ => show win0_0.index t (0 : Fin 2) * 5000 + 1 * (y 0).val = (k 0).val; rw [e0, h0]; omega
  | ⟨1, _⟩ => show win0_0.index t (1 : Fin 2) * 64 + 1 * (y 1).val = (k 1).val; rw [e1, h1]; omega

/-- Row `y 0` of the feature block at point t is row 5000·t + `y 0` of the array. -/
theorem feat_at (c : Dev nD) (t : Fin cfg0.N) (y : S5000x64.Idx) (k : S50000x64.Idx)
    (h0 : (k 0).val = t.val * 5000 + (y 0).val) (h1 : (k 1).val = (y 1).val) :
    (iblk0 V c 1 t : Vec Ideal S5000x64 .f32) y = (V c main_arg0 : Vec Ideal S50000x64 .f32) k := by
  obtain ⟨-, -, e0, e1, -⟩ := idx t
  unfold iblk0
  rw [View.read_apply]
  show (V c main_arg0 : Vec Ideal S50000x64 .f32) _ = (V c main_arg0 : Vec Ideal S50000x64 .f32) _
  refine congrArg (V c main_arg0 : Vec Ideal S50000x64 .f32) (funext fun a => Fin.ext ?_)
  match a with
  | ⟨0, _⟩ => show win0_1.index t (0 : Fin 2) * 5000 + 1 * (y 0).val = (k 0).val; rw [e0, h0]; omega
  | ⟨1, _⟩ => show win0_1.index t (1 : Fin 2) * 64 + 1 * (y 1).val = (k 1).val; rw [e1, h1]; omega

/-- The left weight matrix is resident: its one block is the whole matrix. -/
theorem wl_at (c : Dev nD) (t : Fin cfg0.N) (y k : S64x128.Idx) (h0 : (k 0).val = (y 0).val) (h1 : (k 1).val = (y 1).val) :
    (iblk0 V c 2 t : Vec Ideal S64x128 .f32) y = (V c main_arg2 : Vec Ideal S64x128 .f32) k := by
  obtain ⟨-, -, -, -, e0, e1, -⟩ := idx t
  unfold iblk0
  rw [View.read_apply]
  show (V c main_arg2 : Vec Ideal S64x128 .f32) _ = (V c main_arg2 : Vec Ideal S64x128 .f32) _
  refine congrArg (V c main_arg2 : Vec Ideal S64x128 .f32) (funext fun a => Fin.ext ?_)
  match a with
  | ⟨0, _⟩ => show win0_2.index t (0 : Fin 2) * 64 + 1 * (y 0).val = (k 0).val; rw [e0, h0]; omega
  | ⟨1, _⟩ => show win0_2.index t (1 : Fin 2) * 128 + 1 * (y 1).val = (k 1).val; rw [e1, h1]; omega

/-- The right weight matrix is resident: its one block is the whole matrix. -/
theorem wr_at (c : Dev nD) (t : Fin cfg0.N) (y k : S64x128.Idx) (h0 : (k 0).val = (y 0).val) (h1 : (k 1).val = (y 1).val) :
    (iblk0 V c 3 t : Vec Ideal S64x128 .f32) y = (V c main_arg4 : Vec Ideal S64x128 .f32) k := by
  obtain ⟨-, -, -, -, -, -, e0, e1, -⟩ := idx t
  unfold iblk0
  rw [View.read_apply]
  show (V c main_arg4 : Vec Ideal S64x128 .f32) _ = (V c main_arg4 : Vec Ideal S64x128 .f32) _
  refine congrArg (V c main_arg4 : Vec Ideal S64x128 .f32) (funext fun a => Fin.ext ?_)
  match a with
  | ⟨0, _⟩ => show win0_3.index t (0 : Fin 2) * 64 + 1 * (y 0).val = (k 0).val; rw [e0, h0]; omega
  | ⟨1, _⟩ => show win0_3.index t (1 : Fin 2) * 128 + 1 * (y 1).val = (k 1).val; rw [e1, h1]; omega

/-- The bias row is resident: its one block is the whole row. -/
theorem bias_at (c : Dev nD) (t : Fin cfg0.N) (y k : S1x128.Idx) (h0 : (k 0).val = (y 0).val) (h1 : (k 1).val = (y 1).val) :
    (iblk0 V c 4 t : Vec Ideal S1x128 .f32) y = (V c main_v23 : Vec Ideal S1x128 .f32) k := by
  obtain ⟨-, -, -, -, -, -, -, -, e0, e1, -⟩ := idx t
  unfold iblk0
  rw [View.read_apply]
  show (V c main_v23 : Vec Ideal S1x128 .f32) _ = (V c main_v23 : Vec Ideal S1x128 .f32) _
  refine congrArg (V c main_v23 : Vec Ideal S1x128 .f32) (funext fun a => Fin.ext ?_)
  match a with
  | ⟨0, _⟩ => show win0_4.index t (0 : Fin 2) * 1 + 1 * (y 0).val = (k 0).val; rw [e0, h0]; omega
  | ⟨1, _⟩ => show win0_4.index t (1 : Fin 2) * 128 + 1 * (y 1).val = (k 1).val; rw [e1, h1]; omega

/-- WHAT POINT t WRITES BACK is block t of the hidden layer of the arrays the region found. -/
theorem flushed (c : Dev nD) (t : Fin cfg0.N) :
    (dat0 V c).flushed 5 t = ((cfg0.win 5).blk t).view.read (Elt Ideal)
      (hidden (V c main_v22) (V c main_arg0) (V c main_arg2) (V c main_arg4) (V c main_v23)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  obtain ⟨-, -, -, -, -, -, -, -, -, -, e50, e51⟩ := idx t
  have hj0 : ((((cfg0.win 5).blk t).view.emb j) 0).val = t.val * 5000 + (j 0).val := by
    show win0_5.index t (0 : Fin 2) * 5000 + 1 * (j 0).val = _
    rw [e50]; omega
  have hj1 : ((((cfg0.win 5).blk t).view.emb j) 1).val = (j 1).val := by
    show win0_5.index t (1 : Fin 2) * 128 + 1 * (j 1).val = _
    rw [e51]; omega
  show k0_pay1 (F := Ideal) (iblk0 V c 0 t) (iblk0 V c 1 t) (iblk0 V c 2 t) (iblk0 V c 3 t) (iblk0 V c 4 t) j
      = hidden (V c main_v22) (V c main_arg0) (V c main_arg2) (V c main_arg4) (V c main_v23) (((cfg0.win 5).blk t).view.emb j)
  refine (pay0_apply (iblk0 V c 0 t) (iblk0 V c 1 t) (iblk0 V c 2 t) (iblk0 V c 3 t) (iblk0 V c 4 t) j).trans ?_
  rw [hidden_apply]
  have s0 : ∀ k : Fin 64, (iblk0 V c 0 t : Vec Ideal S5000x64 .f32) (rowA j k)
      = (V c main_v22 : Vec Ideal S50000x64 .f32) (rowH (((cfg0.win 5).blk t).view.emb j) k) :=
    fun k => mean_at V c t (rowA j k) (rowH (((cfg0.win 5).blk t).view.emb j) k) hj0 rfl
  have s1 : ∀ k : Fin 64, (iblk0 V c 1 t : Vec Ideal S5000x64 .f32) (rowA j k)
      = (V c main_arg0 : Vec Ideal S50000x64 .f32) (rowH (((cfg0.win 5).blk t).view.emb j) k) :=
    fun k => feat_at V c t (rowA j k) (rowH (((cfg0.win 5).blk t).view.emb j) k) hj0 rfl
  have s2 : ∀ k : Fin 64, (iblk0 V c 2 t : Vec Ideal S64x128 .f32) (colA j k)
      = (V c main_arg2 : Vec Ideal S64x128 .f32) (colH (((cfg0.win 5).blk t).view.emb j) k) :=
    fun k => wl_at V c t (colA j k) (colH (((cfg0.win 5).blk t).view.emb j) k) rfl hj1
  have s3 : ∀ k : Fin 64, (iblk0 V c 3 t : Vec Ideal S64x128 .f32) (colA j k)
      = (V c main_arg4 : Vec Ideal S64x128 .f32) (colH (((cfg0.win 5).blk t).view.emb j) k) :=
    fun k => wr_at V c t (colA j k) (colH (((cfg0.win 5).blk t).view.emb j) k) rfl hj1
  have s4 : (iblk0 V c 4 t : Vec Ideal S1x128 .f32) (biasA j)
      = (V c main_v23 : Vec Ideal S1x128 .f32) (biasH (((cfg0.win 5).blk t).view.emb j)) :=
    bias_at V c t (biasA j) (biasH (((cfg0.win 5).blk t).view.emb j)) rfl hj1
  simp only [s0, s1, s2, s3, s4]

/-- An index of the result array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row r of the result lies in block r / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, e50, e51⟩ := idx ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50']; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- REGION 0's RESULT ARRAY after its last write-back: the hidden layer of the arrays the region found. -/
theorem final (c : Dev nD) :
    (dat0 V c).arrAt 5 cfg0.N = hidden (V c main_v22) (V c main_arg0) (V c main_arg2) (V c main_arg4) (V c main_v23) :=
  (dat0 V c).arrAt_eq_of_cover 5 _ (fun t _ => flushed V c t) cover

end Cert.KernelIdeal.BlocksHidden

end
-- ==== Proof.BlocksOutput.lean ====
/-
  Region 1 of the kernel program (the output layer): its output array, as the layer function of the arrays the region finds
  on entry.

  The region walks the 50000 nodes in ten blocks of 5000 rows. At point t it reads rows 5000·t … 5000·t + 4999 of the
  neighbour means and of the features, the whole weight matrices and the bias row, and writes the same rows of the
  result. A block's coordinate is always (block index) × (block size) + (coordinate inside the block), so row r of block t
  is row 5000·t + r of the array; the body's entry there is the layer function's entry at that row. The ten blocks tile the
  array (row r lies in block r / 5000), so after the last write-back the array is the layer function everywhere.
-/
import proofs.«125635_j14491219657351_1_alg».proof.Proof.Gen.KernelIdeal.Frame
import proofs.«125635_j14491219657351_1_alg».proof.Proof.Body
import proofs.«125635_j14491219657351_1_alg».proof.Proof.Layers
import Idealize.ShloMosaic.Lib.Pipeline.Value

set_option maxRecDepth 16384

noncomputable section

namespace Cert.KernelIdeal.BlocksOutput

open Cert.KernelIdeal Cert.KernelIdeal.Gen Cert.KernelIdeal.Body Cert.Layers
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the resident ones at (0, 0). -/
theorem idx : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `y 0` of the neighbour-mean block at point t is row 5000·t + `y 0` of the array. -/
theorem mean_at (c : Dev nD) (t : Fin cfg1.N) (y : S5000x128.Idx) (k : S50000x128.Idx)
    (h0 : (k 0).val = t.val * 5000 + (y 0).val) (h1 : (k 1).val = (y 1).val) :
    (iblk1 V c 0 t : Vec Ideal S5000x128 .f32) y = (V c main_v47 : Vec Ideal S50000x128 .f32) k := by
  obtain ⟨e0, e1, -⟩ := idx t
  unfold iblk1
  rw [View.read_apply]
  show (V c main_v47 : Vec Ideal S50000x128 .f32) _ = (V c main_v47 : Vec Ideal S50000x128 .f32) _
  refine congrArg (V c main_v47 : Vec Ideal S50000x128 .f32) (funext fun a => Fin.ext ?_)
  match a with
  | ⟨0, _⟩ => show win1_0.index t (0 : Fin 2) * 5000 + 1 * (y 0).val = (k 0).val; rw [e0, h0]; omega
  | ⟨1, _⟩ => show win1_0.index t (1 : Fin 2) * 128 + 1 * (y 1).val = (k 1).val; rw [e1, h1]; omega

/-- Row `y 0` of the feature block at point t is row 5000·t + `y 0` of the array. -/
theorem feat_at (c : Dev nD) (t : Fin cfg1.N) (y : S5000x128.Idx) (k : S50000x128.Idx)
    (h0 : (k 0).val = t.val * 5000 + (y 0).val) (h1 : (k 1).val = (y 1).val) :
    (iblk1 V c 1 t : Vec Ideal S5000x128 .f32) y = (V c main_v24 : Vec Ideal S50000x128 .f32) k := by
  obtain ⟨-, -, e0, e1, -⟩ := idx t
  unfold iblk1
  rw [View.read_apply]
  show (V c main_v24 : Vec Ideal S50000x128 .f32) _ = (V c main_v24 : Vec Ideal S50000x128 .f32) _
  refine congrArg (V c main_v24 : Vec Ideal S50000x128 .f32) (funext fun a => Fin.ext ?_)
  match a with
  | ⟨0, _⟩ => show win1_1.index t (0 : Fin 2) * 5000 + 1 * (y 0).val = (k 0).val; rw [e0, h0]; omega
  | ⟨1, _⟩ => show win1_1.index t (1 : Fin 2) * 128 + 1 * (y 1).val = (k 1).val; rw [e1, h1]; omega

/-- The left weight matrix is resident: its one block is the whole matrix. -/
theorem wl_at (c : Dev nD) (t : Fin cfg1.N) (y k : S128x64.Idx) (h0 : (k 0).val = (y 0).val) (h1 : (k 1).val = (y 1).val) :
    (iblk1 V c 2 t : Vec Ideal S128x64 .f32) y = (V c main_arg5 : Vec Ideal S128x64 .f32) k := by
  obtain ⟨-, -, -, -, e0, e1, -⟩ := idx t
  unfold iblk1
  rw [View.read_apply]
  show (V c main_arg5 : Vec Ideal S128x64 .f32) _ = (V c main_arg5 : Vec Ideal S128x64 .f32) _
  refine congrArg (V c main_arg5 : Vec Ideal S128x64 .f32) (funext fun a => Fin.ext ?_)
  match a with
  | ⟨0, _⟩ => show win1_2.index t (0 : Fin 2) * 128 + 1 * (y 0).val = (k 0).val; rw [e0, h0]; omega
  | ⟨1, _⟩ => show win1_2.index t (1 : Fin 2) * 64 + 1 * (y 1).val = (k 1).val; rw [e1, h1]; omega

/-- The right weight matrix is resident: its one block is the whole matrix. -/
theorem wr_at (c : Dev nD) (t : Fin cfg1.N) (y k : S128x64.Idx) (h0 : (k 0).val = (y 0).val) (h1 : (k 1).val = (y 1).val) :
    (iblk1 V c 3 t : Vec Ideal S128x64 .f32) y = (V c main_arg7 : Vec Ideal S128x64 .f32) k := by
  obtain ⟨-, -, -, -, -, -, e0, e1, -⟩ := idx t
  unfold iblk1
  rw [View.read_apply]
  show (V c main_arg7 : Vec Ideal S128x64 .f32) _ = (V c main_arg7 : Vec Ideal S128x64 .f32) _
  refine congrArg (V c main_arg7 : Vec Ideal S128x64 .f32) (funext fun a => Fin.ext ?_)
  match a with
  | ⟨0, _⟩ => show win1_3.index t (0 : Fin 2) * 128 + 1 * (y 0).val = (k 0).val; rw [e0, h0]; omega
  | ⟨1, _⟩ => show win1_3.index t (1 : Fin 2) * 64 + 1 * (y 1).val = (k 1).val; rw [e1, h1]; omega

/-- The bias row is resident: its one block is the whole row. -/
theorem bias_at (c : Dev nD) (t : Fin cfg1.N) (y k : S1x64.Idx) (h0 : (k 0).val = (y 0).val) (h1 : (k 1).val = (y 1).val) :
    (iblk1 V c 4 t : Vec Ideal S1x64 .f32) y = (V c main_v48 : Vec Ideal S1x64 .f32) k := by
  obtain ⟨-, -, -, -, -, -, -, -, e0, e1, -⟩ := idx t
  unfold iblk1
  rw [View.read_apply]
  show (V c main_v48 : Vec Ideal S1x64 .f32) _ = (V c main_v48 : Vec Ideal S1x64 .f32) _
  refine congrArg (V c main_v48 : Vec Ideal S1x64 .f32) (funext fun a => Fin.ext ?_)
  match a with
  | ⟨0, _⟩ => show win1_4.index t (0 : Fin 2) * 1 + 1 * (y 0).val = (k 0).val; rw [e0, h0]; omega
  | ⟨1, _⟩ => show win1_4.index t (1 : Fin 2) * 64 + 1 * (y 1).val = (k 1).val; rw [e1, h1]; omega

/-- WHAT POINT t WRITES BACK is block t of the output layer of the arrays the region found. -/
theorem flushed (c : Dev nD) (t : Fin cfg1.N) :
    (dat1 V c).flushed 5 t = ((cfg1.win 5).blk t).view.read (Elt Ideal)
      (output (V c main_v47) (V c main_v24) (V c main_arg5) (V c main_arg7) (V c main_v48)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  obtain ⟨-, -, -, -, -, -, -, -, -, -, e50, e51⟩ := idx t
  have hj0 : ((((cfg1.win 5).blk t).view.emb j) 0).val = t.val * 5000 + (j 0).val := by
    show win1_5.index t (0 : Fin 2) * 5000 + 1 * (j 0).val = _
    rw [e50]; omega
  have hj1 : ((((cfg1.win 5).blk t).view.emb j) 1).val = (j 1).val := by
    show win1_5.index t (1 : Fin 2) * 64 + 1 * (j 1).val = _
    rw [e51]; omega
  show k1_pay1 (F := Ideal) (iblk1 V c 0 t) (iblk1 V c 1 t) (iblk1 V c 2 t) (iblk1 V c 3 t) (iblk1 V c 4 t) j
      = output (V c main_v47) (V c main_v24) (V c main_arg5) (V c main_arg7) (V c main_v48) (((cfg1.win 5).blk t).view.emb j)
  refine (pay1_apply (iblk1 V c 0 t) (iblk1 V c 1 t) (iblk1 V c 2 t) (iblk1 V c 3 t) (iblk1 V c 4 t) j).trans ?_
  rw [output_apply]
  have s0 : ∀ k : Fin 128, (iblk1 V c 0 t : Vec Ideal S5000x128 .f32) (rowB j k)
      = (V c main_v47 : Vec Ideal S50000x128 .f32) (rowO (((cfg1.win 5).blk t).view.emb j) k) :=
    fun k => mean_at V c t (rowB j k) (rowO (((cfg1.win 5).blk t).view.emb j) k) hj0 rfl
  have s1 : ∀ k : Fin 128, (iblk1 V c 1 t : Vec Ideal S5000x128 .f32) (rowB j k)
      = (V c main_v24 : Vec Ideal S50000x128 .f32) (rowO (((cfg1.win 5).blk t).view.emb j) k) :=
    fun k => feat_at V c t (rowB j k) (rowO (((cfg1.win 5).blk t).view.emb j) k) hj0 rfl
  have s2 : ∀ k : Fin 128, (iblk1 V c 2 t : Vec Ideal S128x64 .f32) (colB j k)
      = (V c main_arg5 : Vec Ideal S128x64 .f32) (colO (((cfg1.win 5).blk t).view.emb j) k) :=
    fun k => wl_at V c t (colB j k) (colO (((cfg1.win 5).blk t).view.emb j) k) rfl hj1
  have s3 : ∀ k : Fin 128, (iblk1 V c 3 t : Vec Ideal S128x64 .f32) (colB j k)
      = (V c main_arg7 : Vec Ideal S128x64 .f32) (colO (((cfg1.win 5).blk t).view.emb j) k) :=
    fun k => wr_at V c t (colB j k) (colO (((cfg1.win 5).blk t).view.emb j) k) rfl hj1
  have s4 : (iblk1 V c 4 t : Vec Ideal S1x64 .f32) (biasB j)
      = (V c main_v48 : Vec Ideal S1x64 .f32) (biasO (((cfg1.win 5).blk t).view.emb j)) :=
    bias_at V c t (biasB j) (biasO (((cfg1.win 5).blk t).view.emb j)) rfl hj1
  simp only [s0, s1, s2, s3, s4]

/-- An index of the result array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v49).slice (win1_5.rect t)).set ↔ _
  rw [View.set_slice_whole, Rect.mem_set_unit]
  exact Iff.rfl

/-- Row r of the result lies in block r / 5000. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, -, -, -, -, -, -, e50, e51⟩ := idx ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50']; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e51]; omega

/-- REGION 0's RESULT ARRAY after its last write-back: the output layer of the arrays the region found. -/
theorem final (c : Dev nD) :
    (dat1 V c).arrAt 5 cfg1.N = output (V c main_v47) (V c main_v24) (V c main_arg5) (V c main_arg7) (V c main_v48) :=
  (dat1 V c).arrAt_eq_of_cover 5 _ (fun t _ => flushed V c t) cover

end Cert.KernelIdeal.BlocksOutput

end
-- ==== Proof.Chain.lean ====
/-
  The neighbour mean, as the host computes it, carried as ONE function of the edge list and the node array.

  For every edge (s, d) the row of node s is gathered (a negative s counts from the end: s + 50000) and added into row d of
  a zero array; the number of edges into d is counted the same way from ones, clamped below at one, and divides row d.
  The kernel program and the reference apply the SAME operations here, so a certificate never has to read the gather
  or the accumulating scatters at an index: it only has to know that both sides feed this one function equal arrays.
-/
import proofs.«125635_j14491219657351_1_alg».proof.Proof.Gen.KernelIdeal

noncomputable section

namespace Cert.Chain

open Cert.KernelIdeal Cert.KernelIdeal.Gen Idealize.ShloMosaic Idealize.ShloMosaic.TcCoe

variable {F : FTy → Type} [FloatOps F]

/-- Row 0 of the edge list: each edge's source node. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The sources as gather indices: a negative source counts from the end. -/
def src (e : (⟨S2x800000, .i32⟩ : BufTy).Contents (Elt F)) : (⟨S800000x1, .i32⟩ : BufTy).Contents (Elt F) :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32)))
      (srcRow e))

/-- Row 1 of the edge list as scatter indices: each edge's destination node. -/
def dst (e : (⟨S2x800000, .i32⟩ : BufTy).Contents (Elt F)) : (⟨S800000x1, .i32⟩ : BufTy).Contents (Elt F) :=
  broadcastInDim S800000x1 ![0] bcast_S800000_S800000x1_0
    (shapeCast _ (extractStridedSlice S1x800000 ![1, 0] e slices_S2x800000_S1x800000_1_0) shapeCasts_S1x800000_S800000)

/-- The number of edges into each node, at least one. -/
def degree (e : (⟨S2x800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32)) (dst e)
      (broadcastInDim S800000 ![] bcast_S_S800000 (constant S_ .f32 0x3F800000#32)))
    (broadcastInDim S50000 ![] bcast_S_S50000 (constant S_ .f32 0x3F800000#32))

/-- The mean of the neighbours' rows of a 64-feature node array. -/
def mean64 (e : (⟨S2x800000, .i32⟩ : BufTy).Contents (Elt F)) (x : (⟨S50000x64, .f32⟩ : BufTy).Contents (Elt F)) :
    (⟨S50000x64, .f32⟩ : BufTy).Contents (Elt F) :=
  Host.divf
    (Host.scatterAdd scatter_S50000x64_S800000x1_S800000x64_1_0_0_1 (broadcastInDim S50000x64 ![] bcast_S_S50000x64 (constant S_ .f32 0x00000000#32)) (dst e)
      (Host.gather gather_S50000x64_S800000x1_S800000x64_1_0_n_n_0_1_164 x (src e)))
    (broadcastInDim S50000x64 ![0, 1] bcast_S50000x1_S50000x64_0_1 (broadcastInDim S50000x1 ![0] bcast_S50000_S50000x1_0 (degree e)))

/-- The mean of the neighbours' rows of a 128-feature node array. -/
def mean128 (e : (⟨S2x800000, .i32⟩ : BufTy).Contents (Elt F)) (h : (⟨S50000x128, .f32⟩ : BufTy).Contents (Elt F)) :
    (⟨S50000x128, .f32⟩ : BufTy).Contents (Elt F) :=
  Host.divf
    (Host.scatterAdd scatter_S50000x128_S800000x1_S800000x128_1_0_0_1 (broadcastInDim S50000x128 ![] bcast_S_S50000x128 (constant S_ .f32 0x00000000#32)) (dst e)
      (Host.gather gather_S50000x128_S800000x1_S800000x128_1_0_n_n_0_1_1128 h (src e)))
    (broadcastInDim S50000x128 ![0, 1] bcast_S50000x1_S50000x128_0_1 (broadcastInDim S50000x1 ![0] bcast_S50000_S50000x1_0 (degree e)))

end Cert.Chain

end
-- ==== Proof.Entry.lean ====
/-
  What each kernel region finds in the arrays it reads, in terms of the program's arguments.

  Before region 0 the host computes the neighbour mean of the node features and reshapes the first bias to a row; the
  features and the first layer's weights are arguments no operation writes. Between the regions it does the same with
  region 0's result array in the features' place and with the second bias. Each fact is the fold of the stretch's
  operations read at one buffer: an operation's own result buffer holds its function's value, every other buffer what it
  held before.
-/
import proofs.«125635_j14491219657351_1_alg».proof.Proof.Gen.KernelIdeal.Frame
import proofs.«125635_j14491219657351_1_alg».proof.Proof.Chain
import Idealize.ShloMosaic.Lib.StableHlo.Run

set_option maxRecDepth 16384

noncomputable section

namespace Cert.KernelIdeal.Entry

open Cert.KernelIdeal Cert.KernelIdeal.Gen Cert.Chain
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## On entry to region 0 -/

/-- The neighbour means of the node features. -/
theorem r0_mean (c : Dev nD) : V1 m ρ c main_v22 = mean64 (m ((c : Thread nD τ).loc main_arg1)) (m ((c : Thread nD τ).loc main_arg0)) := by
  show StableHlo.after hostOps0 (W0 m ρ c) (Proc.devRef .tc main_v22) = _
  dsimp only [hostOps0]
  after_results_simp <;> rfl

/-- The node features, as launched. -/
theorem r0_feat (c : Dev nD) : V1 m ρ c main_arg0 = m ((c : Thread nD τ).loc main_arg0) := by
  show StableHlo.after hostOps0 (W0 m ρ c) (Proc.devRef .tc main_arg0) = _
  dsimp only [hostOps0]
  after_results_simp <;> rfl

/-- The first layer's left weights, as launched. -/
theorem r0_wl (c : Dev nD) : V1 m ρ c main_arg2 = m ((c : Thread nD τ).loc main_arg2) := by
  show StableHlo.after hostOps0 (W0 m ρ c) (Proc.devRef .tc main_arg2) = _
  dsimp only [hostOps0]
  after_results_simp <;> rfl

/-- The first layer's right weights, as launched. -/
theorem r0_wr (c : Dev nD) : V1 m ρ c main_arg4 = m ((c : Thread nD τ).loc main_arg4) := by
  show StableHlo.after hostOps0 (W0 m ρ c) (Proc.devRef .tc main_arg4) = _
  dsimp only [hostOps0]
  after_results_simp <;> rfl

/-- The first bias as a [1, 128] row. -/
theorem r0_bias (c : Dev nD) : V1 m ρ c main_v23 = shapeCast S1x128 (m ((c : Thread nD τ).loc main_arg3)) shapeCasts_S128_S1x128 := by
  show StableHlo.after hostOps0 (W0 m ρ c) (Proc.devRef .tc main_v23) = _
  dsimp only [hostOps0]
  after_results_simp <;> rfl

/-! ## At region 0's exit: an argument no window of the region names is as launched -/

theorem exit0_edges (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    dsimp only [hostOps0]
    after_results_simp <;> rfl)
theorem exit0_wl2 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]
    after_results_simp <;> rfl)
theorem exit0_bias2 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    dsimp only [hostOps0]
    after_results_simp <;> rfl)
theorem exit0_wr2 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    dsimp only [hostOps0]
    after_results_simp <;> rfl)

/-! ## On entry to region 1 -/

/-- The hidden array: what region 0's write-backs left. -/
theorem r1_hid (c : Dev nD) : V3 m ρ c main_v24 = (dat0 (V1 m ρ) c).arrAt 5 cfg0.N := by
  refine Eq.trans ?_ (W2_arr m ρ c 5)
  show StableHlo.after hostOps1 (W2 m ρ c) (Proc.devRef .tc main_v24) = _
  dsimp only [hostOps1]
  after_results_simp <;> rfl

/-- The neighbour means of the hidden array. -/
theorem r1_mean (c : Dev nD) : V3 m ρ c main_v47 = mean128 (m ((c : Thread nD τ).loc main_arg1)) ((dat0 (V1 m ρ) c).arrAt 5 cfg0.N) := by
  rw [← W2_arr m ρ c 5, ← exit0_edges m ρ c]
  show StableHlo.after hostOps1 (W2 m ρ c) (Proc.devRef .tc main_v47) = _
  dsimp only [hostOps1]
  after_results_simp <;> rfl

/-- The second layer's left weights, as launched. -/
theorem r1_wl (c : Dev nD) : V3 m ρ c main_arg5 = m ((c : Thread nD τ).loc main_arg5) := by
  rw [← exit0_wl2 m ρ c]
  show StableHlo.after hostOps1 (W2 m ρ c) (Proc.devRef .tc main_arg5) = _
  dsimp only [hostOps1]
  after_results_simp <;> rfl

/-- The second layer's right weights, as launched. -/
theorem r1_wr (c : Dev nD) : V3 m ρ c main_arg7 = m ((c : Thread nD τ).loc main_arg7) := by
  rw [← exit0_wr2 m ρ c]
  show StableHlo.after hostOps1 (W2 m ρ c) (Proc.devRef .tc main_arg7) = _
  dsimp only [hostOps1]
  after_results_simp <;> rfl

/-- The second bias as a [1, 64] row. -/
theorem r1_bias (c : Dev nD) : V3 m ρ c main_v48 = shapeCast S1x64 (m ((c : Thread nD τ).loc main_arg6)) shapeCasts_S64_S1x64 := by
  rw [← exit0_bias2 m ρ c]
  show StableHlo.after hostOps1 (W2 m ρ c) (Proc.devRef .tc main_v48) = _
  dsimp only [hostOps1]
  after_results_simp <;> rfl

end Cert.KernelIdeal.Entry

end
-- ==== Proof.Sage.lean ====
/-
  The two-layer value as ONE function of the eight arguments: what both programs compute.

  hidden = max(mean(x) · W1_l + x · W1_r + b1, 0), result = mean(hidden) · W2_l + hidden · W2_r + b2, where mean(·) is
  the host's neighbour mean over the edge list and each bias is read as a one-row matrix.
-/
import proofs.«125635_j14491219657351_1_alg».proof.Proof.Layers
import proofs.«125635_j14491219657351_1_alg».proof.Proof.Chain

noncomputable section

namespace Cert.Sage

open Cert.KernelIdeal Cert.KernelIdeal.Gen Cert.Layers Cert.Chain Idealize.ShloMosaic Idealize.ShloMosaic.TcCoe

/-- The hidden array. -/
def hid (x : (⟨S50000x64, .f32⟩ : BufTy).Contents (Elt Ideal)) (e : (⟨S2x800000, .i32⟩ : BufTy).Contents (Elt Ideal)) (w1l : (⟨S64x128, .f32⟩ : BufTy).Contents (Elt Ideal)) (b1 : (⟨S128, .f32⟩ : BufTy).Contents (Elt Ideal)) (w1r : (⟨S64x128, .f32⟩ : BufTy).Contents (Elt Ideal)) : (⟨S50000x128, .f32⟩ : BufTy).Contents (Elt Ideal) :=
  hidden (mean64 e x) x w1l w1r (shapeCast S1x128 b1 shapeCasts_S128_S1x128)

/-- The result array. -/
def sage (x : (⟨S50000x64, .f32⟩ : BufTy).Contents (Elt Ideal)) (e : (⟨S2x800000, .i32⟩ : BufTy).Contents (Elt Ideal)) (w1l : (⟨S64x128, .f32⟩ : BufTy).Contents (Elt Ideal)) (b1 : (⟨S128, .f32⟩ : BufTy).Contents (Elt Ideal)) (w1r : (⟨S64x128, .f32⟩ : BufTy).Contents (Elt Ideal)) (w2l : (⟨S128x64, .f32⟩ : BufTy).Contents (Elt Ideal)) (b2 : (⟨S64, .f32⟩ : BufTy).Contents (Elt Ideal)) (w2r : (⟨S128x64, .f32⟩ : BufTy).Contents (Elt Ideal)) : (⟨S50000x64, .f32⟩ : BufTy).Contents (Elt Ideal) :=
  output (mean128 e (hid x e w1l b1 w1r)) (hid x e w1l b1 w1r) w2l w2r (shapeCast S1x64 b2 shapeCasts_S64_S1x64)

end Cert.Sage

end
-- ==== Proof.KernelValue.lean ====
/-
  The kernel program's result array, as the two-layer value of its arguments.

  Region 0 leaves the hidden-layer function of what it found on entry — the neighbour means of the features, the features,
  the first layer's weights and bias —, region 1 the output-layer function of the neighbour means of that hidden array, the
  hidden array, and the second layer's weights and bias.
-/
import proofs.«125635_j14491219657351_1_alg».proof.Proof.BlocksHidden
import proofs.«125635_j14491219657351_1_alg».proof.Proof.BlocksOutput
import proofs.«125635_j14491219657351_1_alg».proof.Proof.Entry
import proofs.«125635_j14491219657351_1_alg».proof.Proof.Sage

noncomputable section

namespace Cert.KernelIdeal.KernelValue

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg)

/-- What region 0's write-backs leave: the hidden array. -/
theorem hidden_array (c : Dev nD) :
    (dat0 (V1 m ρ) c).arrAt 5 cfg0.N = hid (m ((c : Thread nD τ).loc main_arg0)) (m ((c : Thread nD τ).loc main_arg1)) (m ((c : Thread nD τ).loc main_arg2)) (m ((c : Thread nD τ).loc main_arg3)) (m ((c : Thread nD τ).loc main_arg4)) := by
  rw [BlocksHidden.final (V1 m ρ) c, Entry.r0_mean m ρ c, Entry.r0_feat m ρ c, Entry.r0_wl m ρ c, Entry.r0_wr m ρ c, Entry.r0_bias m ρ c]
  rfl

/-- What region 1's write-backs leave: the result array. -/
theorem result_array (c : Dev nD) :
    (dat1 (V3 m ρ) c).arrAt 5 cfg1.N
      = sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [BlocksOutput.final (V3 m ρ) c, Entry.r1_mean m ρ c, Entry.r1_hid m ρ c, Entry.r1_wl m ρ c, Entry.r1_wr m ρ c, Entry.r1_bias m ρ c,
    hidden_array m ρ c]
  rfl

end Cert.KernelIdeal.KernelValue

end
-- ==== Proof.RefValue.lean ====
/-
  The reference, read as the same two layer functions.

  The reference computes, per layer, `mean · W_l + b + x · W_r` with the host's whole-array products, the bias spread over
  the rows, and (between the layers) a maximum with zero. Entry by entry a whole-array product is the sum over the
  contracted feature of a row entry times a column entry, the spread bias is the bias at the column, and
      (A + b) + B  =  (A + B) + b
  on the extended reals, since addition there is commutative and associative (no finiteness is needed). So the hidden
  array is the hidden-layer function, and the result the output-layer function, of the neighbour means — and the neighbour
  means are the one host chain applied to the edge list and the layer's input, operation for operation.
-/
import proofs.«125635_j14491219657351_1_alg».proof.Proof.Gen.ReferenceIdeal.Read
import proofs.«125635_j14491219657351_1_alg».proof.Proof.Layers
import proofs.«125635_j14491219657351_1_alg».proof.Proof.Chain
import proofs.«125635_j14491219657351_1_alg».proof.Proof.Sage
import Idealize.ShloMosaic.Lib.Pipeline.Value

noncomputable section

namespace Cert.ReferenceIdeal.RefValue

open Cert.ReferenceIdeal Cert.ReferenceIdeal.Gen Cert.ReferenceIdeal.Read Cert.Layers
open Idealize.ShloMosaic Idealize.ShloMosaic.TcCoe Idealize.SL.Sem

/-! ## The neighbour means are the one host chain -/

/-- The first layer's means: the chain applied to the edge list and the node features. -/
theorem mean1_eq (x0 : (⟨S50000x64, .f32⟩ : BufTy).Contents (Elt Ideal)) (x1 : (⟨S2x800000, .i32⟩ : BufTy).Contents (Elt Ideal)) : val_main_v22 (F := Ideal) x0 x1 = Cert.Chain.mean64 x1 x0 := rfl

/-- The second layer's means: the chain applied to the edge list and the hidden array. -/
theorem mean2_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v52 (F := Ideal) x0 x1 x2 x3 x4 = Cert.Chain.mean128 x1 (val_main_v29 (F := Ideal) x0 x1 x2 x3 x4) := rfl

/-! ## The hidden layer -/

theorem row23 (i : S50000x128.Idx) (k : Fin 64) : lidx_main_v23 i k = rowH i k :=
  funext fun a => Fin.ext (by match a with | ⟨0, _⟩ => rfl | ⟨1, _⟩ => rfl)
theorem col23 (i : S50000x128.Idx) (k : Fin 64) : ridx_main_v23 i k = colH i k :=
  funext fun a => Fin.ext (by match a with | ⟨0, _⟩ => rfl | ⟨1, _⟩ => rfl)
theorem row27 (i : S50000x128.Idx) (k : Fin 64) : lidx_main_v27 i k = rowH i k :=
  funext fun a => Fin.ext (by match a with | ⟨0, _⟩ => rfl | ⟨1, _⟩ => rfl)
theorem col27 (i : S50000x128.Idx) (k : Fin 64) : ridx_main_v27 i k = colH i k :=
  funext fun a => Fin.ext (by match a with | ⟨0, _⟩ => rfl | ⟨1, _⟩ => rfl)

/-- The bias spread over the rows reads the bias at the column; so does the bias reshaped to a [1, 128] row. -/
theorem bias1_at (x3 : (⟨S128, .f32⟩ : BufTy).Contents (Elt Ideal)) (i : S50000x128.Idx) :
    x3 (idx_main_v24 (idx_main_v25 i)) = shapeCast Cert.KernelIdeal.S1x128 x3 Cert.KernelIdeal.Gen.shapeCasts_S128_S1x128 (biasH i) :=
  (shapeCast_apply x3 Cert.KernelIdeal.Gen.shapeCasts_S128_S1x128 (biasH i) (idx_main_v24 (idx_main_v25 i)) (by
    rw [Shape.rowMajor_val_one, Shape.rowMajor_val_two]
    show (i 1).val = 0 * 128 + (i 1).val
    omega)).symm

/-- THE HIDDEN ARRAY of the reference is the hidden-layer function of the first means. -/
theorem hidden_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v29 (F := Ideal) x0 x1 x2 x3 x4
      = hidden (val_main_v22 (F := Ideal) x0 x1) x0 x2 x4 (shapeCast Cert.KernelIdeal.S1x128 x3 Cert.KernelIdeal.Gen.shapeCasts_S128_S1x128) := by
  funext i
  rw [val_main_v29_apply, val_main_v28_apply, val_main_v26_apply, val_main_v23_apply, val_main_v27_apply, val_main_v25_apply,
    val_main_v24_apply, val_main_call0_v0_apply, val_main_call0_cst_apply, hidden_apply]
  simp only [row23, col23, row27, col27]
  rw [bias1_at x3 i]
  show max ((_ + _) + _) _ = max ((_ + _) + _) _
  rw [add_right_comm]
  rfl

/-! ## The output layer -/

theorem row53 (i : S50000x64.Idx) (k : Fin 128) : lidx_main_v53 i k = rowO i k :=
  funext fun a => Fin.ext (by match a with | ⟨0, _⟩ => rfl | ⟨1, _⟩ => rfl)
theorem col53 (i : S50000x64.Idx) (k : Fin 128) : ridx_main_v53 i k = colO i k :=
  funext fun a => Fin.ext (by match a with | ⟨0, _⟩ => rfl | ⟨1, _⟩ => rfl)
theorem row57 (i : S50000x64.Idx) (k : Fin 128) : lidx_main_v57 i k = rowO i k :=
  funext fun a => Fin.ext (by match a with | ⟨0, _⟩ => rfl | ⟨1, _⟩ => rfl)
theorem col57 (i : S50000x64.Idx) (k : Fin 128) : ridx_main_v57 i k = colO i k :=
  funext fun a => Fin.ext (by match a with | ⟨0, _⟩ => rfl | ⟨1, _⟩ => rfl)

/-- The second bias spread over the rows reads the bias at the column; so does the bias reshaped to a [1, 64] row. -/
theorem bias2_at (x6 : (⟨S64, .f32⟩ : BufTy).Contents (Elt Ideal)) (i : S50000x64.Idx) :
    x6 (idx_main_v54 (idx_main_v55 i)) = shapeCast Cert.KernelIdeal.S1x64 x6 Cert.KernelIdeal.Gen.shapeCasts_S64_S1x64 (biasO i) :=
  (shapeCast_apply x6 Cert.KernelIdeal.Gen.shapeCasts_S64_S1x64 (biasO i) (idx_main_v54 (idx_main_v55 i)) (by
    rw [Shape.rowMajor_val_one, Shape.rowMajor_val_two]
    show (i 1).val = 0 * 64 + (i 1).val
    omega)).symm

/-- THE RESULT of the reference is the output-layer function of the second means and the hidden array. -/
theorem output_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v58 (F := Ideal) x0 x1 x2 x3 x4 x5 x6 x7
      = output (val_main_v52 (F := Ideal) x0 x1 x2 x3 x4) (val_main_v29 (F := Ideal) x0 x1 x2 x3 x4) x5 x7
          (shapeCast Cert.KernelIdeal.S1x64 x6 Cert.KernelIdeal.Gen.shapeCasts_S64_S1x64) := by
  funext i
  rw [val_main_v58_apply, val_main_v56_apply, val_main_v53_apply, val_main_v57_apply, val_main_v55_apply, val_main_v54_apply, output_apply]
  simp only [row53, col53, row57, col57]
  rw [bias2_at x6 i]
  show (_ + _) + _ = (_ + _) + _
  rw [add_right_comm]

/-! ## The reference's result is the two-layer value of its arguments -/

theorem ref_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v58 (F := Ideal) x0 x1 x2 x3 x4 x5 x6 x7 = Cert.Sage.sage x0 x1 x2 x3 x4 x5 x6 x7 := by
  rw [output_eq, mean2_eq, hidden_eq, mean1_eq]
  rfl

end Cert.ReferenceIdeal.RefValue

end
-- ==== Proof.lean ====
/-
  Two GraphSAGE layers with mean aggregation, the dense part of each layer as a Pallas kernel, against the plain jnp
  reference:
      hidden = max(mean(x) · W1_l + b1 + x · W1_r, 0),      result = mean(hidden) · W2_l + b2 + hidden · W2_r,
  where mean(·) gathers each edge's source row, adds it into the destination's row and divides by the destination's
  in-degree (at least one).

  Both programs compute the neighbour means with the same host operations. The kernel program then runs, per layer, one
  pallas_call over ten blocks of 5000 nodes whose body stores `a · wl + x · wr + b` for its rows (bf16 operands, f32
  accumulation: the identity and the exact sum on the extended reals); the reference uses whole-array products and adds the
  bias between them. Entry by entry the two differ by  (A + B) + b = (A + b) + B,  which holds on the extended reals
  because addition there is commutative and associative — so no input has to be finite for it.

  The frames of the two kernel programs are the generated frame certificates; the reference's frame is its generated run
  with the result dropped; the idealization rewrote nothing, so `preserves` is `True`. For the value claim the kernel
  program's run is re-posted with the result array named (KernelRun), each region's array is read as the layer function of
  what the region found on entry (BlocksHidden, BlocksOutput over Body and Layers), the host stretches give what it found
  (Entry over Chain), and the reference's run is read as the same function (RefValue).
-/
import proofs.«125635_j14491219657351_1_alg».proof.Defs
import proofs.«125635_j14491219657351_1_alg».proof.Proof.Gen.Kernel.Frame
import proofs.«125635_j14491219657351_1_alg».proof.Proof.Gen.KernelIdeal.Frame
import proofs.«125635_j14491219657351_1_alg».proof.Proof.Gen.ReferenceIdeal.Run
import proofs.«125635_j14491219657351_1_alg».proof.Proof.Gen.Pre_finite_inputs
import proofs.«125635_j14491219657351_1_alg».proof.Proof.KernelRun
import proofs.«125635_j14491219657351_1_alg».proof.Proof.KernelValue
import proofs.«125635_j14491219657351_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments alone: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the two-layer value of the (agreeing) arguments. -/
theorem algebraic : Cert.algebraic_KernelIdeal_ReferenceIdeal := by
  intro m ρ m' ρ' _ hagree
  refine ⟨fun c => Cert.Sage.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.result_array m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v58_eq, Cert.ReferenceIdeal.RefValue.ref_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
